-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S5494x64 : Shape := ⟨2, ![5494, 64]⟩
abbrev S5494 : Shape := ⟨1, ![5494]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S5494x64 : S_.BroadcastsInDim S5494x64 (![] : Fin 0 → Fin S5494x64.rank)
  reducesTo_S5494x64_S_d0_1 : S5494x64.ReducesTo [0, 1] S_
  bcast_S_S5494 : S_.BroadcastsInDim S5494 (![] : Fin 0 → Fin S5494.rank)
  reducesTo_S5494_S_d0 : S5494.ReducesTo [0] S_

variable [Facts]

def fn {F : FTy → Type} [FloatOps F] (main_arg0 : FVec F S8192x64 .f32) (main_arg1 : FVec F S5494x64 .f32) (main_arg2 : FVec F S5494 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S5494x64 .f32 := Host.absf main_arg1
  let main_cst_0 : FVec F S_ .f32 := constant S_ .f32 0x7F800000#32
  let main_v5 : FVec F S5494x64 .f32 := broadcastInDim S5494x64 ![] bcast_S_S5494x64 main_cst_0
  let main_v6 : IVec S5494x64 1 := cmpf .olt main_v4 main_v5
  let main_c_1 : IVec S_ 1 := constantI S_ 1 1#1
  let main_v7 : IVec S_ 1 := (fun x v => Host.reduce IntOp.andi x v reducesTo_S5494x64_S_d0_1 h_S_) main_v6 main_c_1
  let main_v8 : IVec S_ 1 := andi main_v3 main_v7
  let main_v9 : FVec F S5494 .f32 := Host.absf main_arg2
  let main_cst_2 : FVec F S_ .f32 := constant S_ .f32 0x7F800000#32
  let main_v10 : FVec F S5494 .f32 := broadcastInDim S5494 ![] bcast_S_S5494 main_cst_2
  let main_v11 : IVec S5494 1 := cmpf .olt main_v9 main_v10
  let main_c_3 : IVec S_ 1 := constantI S_ 1 1#1
  let main_v12 : IVec S_ 1 := (fun x v => Host.reduce IntOp.andi x v reducesTo_S5494_S_d0 h_S_) main_v11 main_c_3
  let main_v13 : IVec S_ 1 := andi main_v8 main_v12
  main_v13
-- ==== Kernel.lean ====
abbrev S8192x64 : Shape := ⟨2, ![8192, 64]⟩
abbrev S5494x64 : Shape := ⟨2, ![5494, 64]⟩
abbrev S5494 : Shape := ⟨1, ![5494]⟩
abbrev S_ : Shape := ⟨0, ![]⟩
abbrev S5632x64 : Shape := ⟨2, ![5632, 64]⟩
abbrev S5632 : Shape := ⟨1, ![5632]⟩
abbrev S1x5632 : Shape := ⟨2, ![1, 5632]⟩
abbrev S8192x5632 : Shape := ⟨2, ![8192, 5632]⟩
abbrev S256x64 : Shape := ⟨2, ![256, 64]⟩
abbrev S1x256 : Shape := ⟨2, ![1, 256]⟩
abbrev S8192x256 : Shape := ⟨2, ![8192, 256]⟩
abbrev S64x256 : Shape := ⟨2, ![64, 256]⟩
abbrev S8192x5494 : Shape := ⟨2, ![8192, 5494]⟩
abbrev S8192x67x82 : Shape := ⟨3, ![8192, 67, 82]⟩
abbrev S8192x82x67 : Shape := ⟨3, ![8192, 82, 67]⟩
abbrev S8192x82x67x1 : Shape := ⟨4, ![8192, 82, 67, 1]⟩

abbrev nBuf : Space → Nat
  | .hbm => 15
  | .vmem => 7
  | .smem => 0
  | _ => 0

abbrev bufTy : (tb : Table) → Fin (tcTables nBuf tb) → BufTy
  | .hbm, ⟨0, _⟩ => ⟨S8192x64, .f32⟩
  | .hbm, ⟨1, _⟩ => ⟨S5494x64, .f32⟩
  | .hbm, ⟨2, _⟩ => ⟨S5494, .f32⟩
  | .hbm, ⟨3, _⟩ => ⟨S_, .i32⟩
  | .hbm, ⟨4, _⟩ => ⟨S_, .f32⟩
  | .hbm, ⟨5, _⟩ => ⟨S5632x64, .f32⟩
  | .hbm, ⟨6, _⟩ => ⟨S_, .i32⟩
  | .hbm, ⟨7, _⟩ => ⟨S_, .f32⟩
  | .hbm, ⟨8, _⟩ => ⟨S5632, .f32⟩
  | .hbm, ⟨9, _⟩ => ⟨S1x5632, .f32⟩
  | .hbm, ⟨10, _⟩ => ⟨S8192x5632, .f32⟩
  | .hbm, ⟨11, _⟩ => ⟨S8192x5494, .f32⟩
  | .hbm, ⟨12, _⟩ => ⟨S8192x67x82, .f32⟩
  | .hbm, ⟨13, _⟩ => ⟨S8192x82x67, .f32⟩
  | .hbm, ⟨14, _⟩ => ⟨S8192x82x67x1, .f32⟩
  | .local _ .vmem, ⟨0, _⟩ => ⟨S8192x64, .f32⟩
  | .local _ .vmem, ⟨1, _⟩ => ⟨S256x64, .f32⟩
  | .local _ .vmem, ⟨2, _⟩ => ⟨S256x64, .f32⟩
  | .local _ .vmem, ⟨3, _⟩ => ⟨S1x256, .f32⟩
  | .local _ .vmem, ⟨4, _⟩ => ⟨S1x256, .f32⟩
  | .local _ .vmem, ⟨5, _⟩ => ⟨S8192x256, .f32⟩
  | .local _ .vmem, ⟨6, _⟩ => ⟨S8192x256, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8192x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S5494x64_S5632x64_01380_000 : S5494x64.Pads (![0, 0] : Fin 2 → Nat) ![138, 0] ![0, 0] S5632x64
  h_S_ : 0 < S_.numel
  pads_S5494_S5632_01380 : S5494.Pads (![0] : Fin 1 → Nat) ![138] ![0] S5632
  shapeCasts_S5632_S1x5632 : S5632.ShapeCasts S1x5632
  inb_S8192x64_S8192x64_0_0 : ∀ a, (![0, 0] : Fin 2 → Nat) a + S8192x64.size a ≤ S8192x64.size a
  h_S8192x64 : 0 < S8192x64.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  shapeCasts_S256x64_S256x64 : S256x64.ShapeCasts S256x64
  transposes_S256x64_p1_0_S64x256 : S256x64.Transposes [1, 0] S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8192x256 : S1x256.Broadcasts S8192x256
  inb_S8192x256_S8192x256_0_0 : ∀ a, (![0, 0] : Fin 2 → Nat) a + S8192x256.size a ≤ S8192x256.size a
  h_S8192x256 : 0 < S8192x256.numel
  slices_S8192x5632_S8192x5494_0_0 : S8192x5632.Slices ![0, 0] S8192x5494
  shapeCasts_S8192x5494_S8192x67x82 : S8192x5494.ShapeCasts S8192x67x82
  transposes_S8192x67x82_S8192x82x67_0_2_1 : S8192x67x82.Transposes [0, 2, 1] S8192x82x67
  bcast_S8192x82x67_S8192x82x67x1_0_1_2 : S8192x82x67.BroadcastsInDim S8192x82x67x1 (![0, 1, 2] : Fin 3 → Fin S8192x82x67x1.rank)
  dot_S8192x64_S64x256_S8192x256_1_0_0_1_n_n_wf : DotDims.WF S8192x64 S64x256 S8192x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S8192x64.size a
  hwx0_0 : ∀ i : grid0.Coords, EltTy.bits .f32 = 32 ∨ (Rect.block (s := S8192x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S5632x64.size a
  hwx0_1 : ∀ i : grid0.Coords, EltTy.bits .f32 = 32 ∨ (Rect.block (s := S5632x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x5632.size a
  hwx0_2 : ∀ i : grid0.Coords, EltTy.bits .f32 = 32 ∨ (Rect.block (s := S1x5632) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x256.size a ≤ S8192x5632.size a
  hwx0_3 : ∀ i : grid0.Coords, EltTy.bits .f32 = 32 ∨ (Rect.block (s := S8192x5632) S8192x256.size (cc0_transform_3 i) (hinb0_3 i)).WholeWords (EltTy.packing .f32)

variable [Facts₀]

def dot_S8192x64_S64x256_S8192x256_1_0_0_1_n_n : DotDims S8192x64 S64x256 S8192x256 where
  lhsContracting := [1]
  rhsContracting := [0]
  lhsNonContracting := [0]
  rhsNonContracting := [1]
  lhsBatch := []
  rhsBatch := []
  wf := dot_S8192x64_S64x256_S8192x256_1_0_0_1_n_n_wf

abbrev win0_0 : Pipeline.Window sig grid0 :=
  Pipeline.Window.ofSpec (Memref.whole main_arg0) S8192x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8192x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x64 : Shape := ⟨2, ![8192, 64]⟩
abbrev S5494x64 : Shape := ⟨2, ![5494, 64]⟩
abbrev S5494 : Shape := ⟨1, ![5494]⟩
abbrev S8192x5494 : Shape := ⟨2, ![8192, 5494]⟩
abbrev S1x5494 : Shape := ⟨2, ![1, 5494]⟩
abbrev S8192x67x82 : Shape := ⟨3, ![8192, 67, 82]⟩
abbrev S8192x82x67 : Shape := ⟨3, ![8192, 82, 67]⟩
abbrev S8192x82x67x1 : Shape := ⟨4, ![8192, 82, 67, 1]⟩

abbrev nBuf : Space → Nat
  | .hbm => 10
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S5494x64, .f32⟩
  | .hbm, ⟨2, _⟩ => ⟨S5494, .f32⟩
  | .hbm, ⟨3, _⟩ => ⟨S8192x5494, .f32⟩
  | .hbm, ⟨4, _⟩ => ⟨S1x5494, .f32⟩
  | .hbm, ⟨5, _⟩ => ⟨S8192x5494, .f32⟩
  | .hbm, ⟨6, _⟩ => ⟨S8192x5494, .f32⟩
  | .hbm, ⟨7, _⟩ => ⟨S8192x67x82, .f32⟩
  | .hbm, ⟨8, _⟩ => ⟨S8192x82x67, .f32⟩
  | .hbm, ⟨9, _⟩ => ⟨S8192x82x67x1, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  bcast_S5494_S1x5494_1 : S5494.BroadcastsInDim S1x5494 (![1] : Fin 1 → Fin S1x5494.rank)
  bcast_S1x5494_S8192x5494_0_1 : S1x5494.BroadcastsInDim S8192x5494 (![0, 1] : Fin 2 → Fin S8192x5494.rank)
  shapeCasts_S8192x5494_S8192x67x82 : S8192x5494.ShapeCasts S8192x67x82
  transposes_S8192x67x82_S8192x82x67_0_2_1 : S8192x67x82.Transposes [0, 2, 1] S8192x82x67
  bcast_S8192x82x67_S8192x82x67x1_0_1_2 : S8192x82x67.BroadcastsInDim S8192x82x67x1 (![0, 1, 2] : Fin 3 → Fin S8192x82x67x1.rank)
  dot_S8192x64_S5494x64_S8192x5494_1_1_0_0_n_n_wf : DotDims.WF S8192x64 S5494x64 S8192x5494 [1] [1] [0] [0] [] []

variable [Facts₀]

def dot_S8192x64_S5494x64_S8192x5494_1_1_0_0_n_n : DotDims S8192x64 S5494x64 S8192x5494 where
  lhsContracting := [1]
  rhsContracting := [1]
  lhsNonContracting := [0]
  rhsNonContracting := [0]
  lhsBatch := []
  rhsBatch := []
  wf := dot_S8192x64_S5494x64_S8192x5494_1_1_0_0_n_n_wf

class Facts : Prop extends Facts₀ where

variable [Facts]
-- ==== Proof.TilePayload.lean ====
/-
  What the kernel body stores, read at one entry of its output tile.

  At a grid point the body holds the whole feature block `a` [8192, 64], one tile `w` of 256 weight rows [256, 64] and
  the tile's 256 biases `β` [1, 256].  It narrows `a` and `w` to bf16 (the identity on the extended reals), transposes
  the weight tile to [64, 256], multiplies into a zero accumulator and adds the biases broadcast down the rows.
  So entry `(r, q)` of what it stores is  Σ_k a(r, k) · w(q, k) + β(0, q) :  the transpose only moves the contracted
  feature axis of the weight tile from the columns to the rows, which the sum over `k` does not see.
-/
import proofs.«150712_j62929860821463_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen
open Idealize.ShloMosaic Idealize.ShloMosaic.ValueIdx

/-! ## The product's operand indices: rows of the features against columns of the transposed tile -/

theorem lhs_axis0 (i : S8192x256.Idx) (q : dot_S8192x64_S64x256_S8192x256_1_0_0_1_n_n.contr.Idx) :
    (dot_S8192x64_S64x256_S8192x256_1_0_0_1_n_n.lhsIdx i q 0).val = (i 0).val := by
  unfold DotDims.lhsIdx
  rw [dif_neg (show ¬(0 : Fin S8192x64.rank) ∈ dot_S8192x64_S64x256_S8192x256_1_0_0_1_n_n.lhsBatch by decide), dif_pos (show (0 : Fin S8192x64.rank) ∈ dot_S8192x64_S64x256_S8192x256_1_0_0_1_n_n.lhsNonContracting by decide)]
  rfl
theorem lhs_axis1 (i : S8192x256.Idx) (q : dot_S8192x64_S64x256_S8192x256_1_0_0_1_n_n.contr.Idx) :
    (dot_S8192x64_S64x256_S8192x256_1_0_0_1_n_n.lhsIdx i q 1).val = (q ⟨0, by decide⟩).val :=
  dot_S8192x64_S64x256_S8192x256_1_0_0_1_n_n.lhsIdx_val_of_single rfl i q
theorem rhs_axis0 (i : S8192x256.Idx) (q : dot_S8192x64_S64x256_S8192x256_1_0_0_1_n_n.contr.Idx) :
    (dot_S8192x64_S64x256_S8192x256_1_0_0_1_n_n.rhsIdx i q 0).val = (q ⟨0, by decide⟩).val :=
  dot_S8192x64_S64x256_S8192x256_1_0_0_1_n_n.rhsIdx_val_of_single rfl i q
theorem rhs_axis1 (i : S8192x256.Idx) (q : dot_S8192x64_S64x256_S8192x256_1_0_0_1_n_n.contr.Idx) :
    (dot_S8192x64_S64x256_S8192x256_1_0_0_1_n_n.rhsIdx i q 1).val = (i 1).val := by
  unfold DotDims.rhsIdx
  rw [dif_neg (show ¬(1 : Fin S64x256.rank) ∈ dot_S8192x64_S64x256_S8192x256_1_0_0_1_n_n.rhsBatch by decide), dif_pos (show (1 : Fin S64x256.rank) ∈ dot_S8192x64_S64x256_S8192x256_1_0_0_1_n_n.rhsNonContracting by decide)]
  rfl

/-- The product into the zero accumulator at `(r, q)`: the sum over the 64 features of row `r` of the left operand
    times column `q` of the right. -/
theorem matmul_tile_apply (a : FVec Ideal S8192x64 .bf16) (w : FVec Ideal S64x256 .bf16) (i : S8192x256.Idx) :
    matmul dot_S8192x64_S64x256_S8192x256_1_0_0_1_n_n none a w (constant S8192x256 .f32 0x00000000#32) i
      = ∑ k : Fin 64, a (ix2 (n0 := 8192) (n1 := 64) (i 0) k) * w (ix2 (n0 := 64) (n1 := 256) k (i 1)) := by
  simp only [matmul]
  rw [Ideal.matmul_constant_zero_apply, ← Equiv.sum_comp (contrEquiv1 dot_S8192x64_S64x256_S8192x256_1_0_0_1_n_n 64 rfl rfl).symm]
  refine Finset.sum_congr rfl fun k _ => ?_
  have hk := contrEquiv1_symm_val dot_S8192x64_S64x256_S8192x256_1_0_0_1_n_n 64 rfl rfl k
  have el : dot_S8192x64_S64x256_S8192x256_1_0_0_1_n_n.lhsIdx i ((contrEquiv1 dot_S8192x64_S64x256_S8192x256_1_0_0_1_n_n 64 rfl rfl).symm k) = ix2 (n0 := 8192) (n1 := 64) (i 0) k := funext fun a => Fin.ext (by
    match a with
    | ⟨0, _⟩ => exact lhs_axis0 _ _
    | ⟨1, _⟩ => exact (lhs_axis1 _ _).trans hk)
  have er : dot_S8192x64_S64x256_S8192x256_1_0_0_1_n_n.rhsIdx i ((contrEquiv1 dot_S8192x64_S64x256_S8192x256_1_0_0_1_n_n 64 rfl rfl).symm k) = ix2 (n0 := 64) (n1 := 256) k (i 1) := funext fun a => Fin.ext (by
    match a with
    | ⟨0, _⟩ => exact (rhs_axis0 _ _).trans hk
    | ⟨1, _⟩ => exact rhs_axis1 _ _)
  rw [el, er]

/-! ## The stored value at an entry -/

/-- Entry `(r, q)` of the stored tile: features row `r` against weight row `q` of the tile, plus bias `q` of the tile. -/
theorem pay_apply (x0 : Vec Ideal S8192x64 .f32) (x1 : Vec Ideal S256x64 .f32) (x2 : Vec Ideal S1x256 .f32)
    (r : Fin 8192) (q : Fin 256) :
    k0_pay1 x0 x1 x2 (ix2 r q)
      = (∑ k : Fin 64, x0 (ix2 r k) * x1 (ix2 q k)) + x2 (ix2 (0 : Fin 1) q) := by
  unfold k0_pay1
  show (matmul (F := Ideal) dot_S8192x64_S64x256_S8192x256_1_0_0_1_n_n none (truncf (F := Ideal) .bf16 x0 bitsLt_bf16_f32)
          (transpose S64x256 [1, 0] (truncf (F := Ideal) .bf16 (shapeCast S256x64 x1 shapeCasts_S256x64_S256x64) bitsLt_bf16_f32) transposes_S256x64_p1_0_S64x256)
          (constant (F := Ideal) S8192x256 .f32 0x00000000#32)) (ix2 r q)
        + (broadcastTo S8192x256 (shapeCast S1x256 x2 shapeCasts_S1x256_S1x256) broadcasts_S1x256_S8192x256) (ix2 r q) = _
  rw [matmul_tile_apply]
  have hb : (broadcastTo S8192x256 (shapeCast S1x256 x2 shapeCasts_S1x256_S1x256) broadcasts_S1x256_S8192x256) (ix2 r q) = x2 (ix2 (0 : Fin 1) q) := by
    refine (broadcastTo_apply _ broadcasts_S1x256_S8192x256 (ix2 r q) (ix2 (0 : Fin 1) q) (fun a => ?_)).trans ?_
    · match a with
      | ⟨0, _⟩ => show (0 : Nat) = if (1 : Nat) = 1 then 0 else _; rw [if_pos rfl]
      | ⟨1, _⟩ => show q.val = if (256 : Nat) = 1 then 0 else q.val; rw [if_neg (by decide)]
    · rw [shapeCast_self]
  rw [hb]
  refine congrArg (· + x2 (ix2 (0 : Fin 1) q)) (Finset.sum_congr rfl fun k _ => ?_)
  have hw : (transpose S64x256 [1, 0] (truncf (F := Ideal) .bf16 (shapeCast S256x64 x1 shapeCasts_S256x64_S256x64) bitsLt_bf16_f32) transposes_S256x64_p1_0_S64x256) (ix2 k q) = x1 (ix2 q k) := by
    refine (transpose_apply [1, 0] _ transposes_S256x64_p1_0_S64x256 (ix2 k q) (ix2 q k) (fun b => ?_)).trans ?_
    · match b with
      | ⟨0, _⟩ => rfl
      | ⟨1, _⟩ => rfl
    · show (shapeCast S256x64 x1 shapeCasts_S256x64_S256x64) (ix2 q k) = _
      rw [shapeCast_self]
  show x0 (ix2 r k) * _ = _
  rw [hw]

end Cert.KernelIdeal.Tile

end
-- ==== Proof.Heads.lean ====
/-
  The mathematics both programs compute, stated once over plain index types and independent of either program.

  For a batch of 8192 feature rows `x` (64 features each), `P` weight rows `W` and one bias per weight row `β`,
  `heads x W β` is the affine map  (r, p) ↦ ⟨x r, W p⟩ + β p : the inner product over the 64 features, as a sum of
  products on the extended reals, plus the bias.  `pixelGrid` rearranges a [8192, 5494] array of such head values
  into the [8192, 82, 67, 1] pixel grid: head `p = y·82 + x` goes to position `(x, y)`.

  Two facts about `heads` are proved here.  Enlarging the weight rows and biases by extra rows (of anything) and
  then keeping only the first 5494 columns of the result changes nothing (`heads_restrict`), because column `p`
  reads weight row `p` and bias `p` only.
-/
import Idealize.ShloMosaic.PureOps.Ideal
import Idealize.ShloMosaic.Lib.ValueIdx
import Idealize.ShloMosaic.Lib.Pipeline.Value

noncomputable section

namespace Cert.Heads

open Idealize.ShloMosaic Idealize.ShloMosaic.ValueIdx

/-- Entry `(r, p)` is the inner product of feature row `r` with weight row `p`, plus bias `p`. -/
def heads {P : Nat} (x : (⟨2, ![8192, 64]⟩ : Shape).Idx → EReal) (W : (⟨2, ![P, 64]⟩ : Shape).Idx → EReal)
    (β : Fin P → EReal) : (⟨2, ![8192, P]⟩ : Shape).Idx → EReal :=
  fun i => (∑ k : Fin 64, x (ix2 (n0 := 8192) (n1 := 64) (i 0) k) * W (ix2 (n0 := P) (n1 := 64) (i 1) k)) + β (i 1)

theorem heads_apply {P : Nat} (x : (⟨2, ![8192, 64]⟩ : Shape).Idx → EReal) (W : (⟨2, ![P, 64]⟩ : Shape).Idx → EReal)
    (β : Fin P → EReal) (r : Fin 8192) (p : Fin P) :
    heads x W β (ix2 r p) = (∑ k : Fin 64, x (ix2 r k) * W (ix2 p k)) + β p := rfl

/-- The head values laid out as the pixel grid: split the head axis as 67 rows of 82, swap the two, add a unit axis. -/
def pixelGrid (y : (⟨2, ![8192, 5494]⟩ : Shape).Idx → EReal)
    (h1 : (⟨2, ![8192, 5494]⟩ : Shape).ShapeCasts ⟨3, ![8192, 67, 82]⟩)
    (h2 : (⟨3, ![8192, 67, 82]⟩ : Shape).Transposes [0, 2, 1] ⟨3, ![8192, 82, 67]⟩)
    (h3 : (⟨3, ![8192, 82, 67]⟩ : Shape).BroadcastsInDim ⟨4, ![8192, 82, 67, 1]⟩ ![0, 1, 2]) :
    (⟨4, ![8192, 82, 67, 1]⟩ : Shape).Idx → EReal :=
  broadcastInDim ⟨4, ![8192, 82, 67, 1]⟩ ![0, 1, 2] h3 (transpose ⟨3, ![8192, 82, 67]⟩ [0, 2, 1] (shapeCast ⟨3, ![8192, 67, 82]⟩ y h1) h2)

/-- Heads over 5632 weight rows that extend the given 5494, read at the first 5494 columns, are the heads over the
    given rows: column `p` depends on weight row `p` and bias `p` alone. -/
theorem heads_restrict (x : (⟨2, ![8192, 64]⟩ : Shape).Idx → EReal)
    (W : (⟨2, ![5494, 64]⟩ : Shape).Idx → EReal) (β : Fin 5494 → EReal)
    (W' : (⟨2, ![5632, 64]⟩ : Shape).Idx → EReal) (β' : Fin 5632 → EReal)
    (hW : ∀ (p : Fin 5494) (k : Fin 64), W' (ix2 ⟨p.val, by omega⟩ k) = W (ix2 p k))
    (hβ : ∀ p : Fin 5494, β' ⟨p.val, by omega⟩ = β p)
    (r : Fin 8192) (p : Fin 5494) :
    heads x W' β' (ix2 r ⟨p.val, by omega⟩) = heads x W β (ix2 r p) := by
  rw [heads_apply, heads_apply, hβ p]
  exact congrArg (· + β p) (Finset.sum_congr rfl fun k _ => by rw [hW p k])

end Cert.Heads

end
-- ==== Proof.Tiles.lean ====
/-
  From the tiles the grid points write to the whole output array of the region.

  The region's grid has 22 points.  Point `t` holds the whole feature array, weight rows `256·t … 256·t + 255` of the
  extended weight array, the matching 256 extended biases, and writes back columns `256·t … 256·t + 255` of the
  [8192, 5632] output.  By the body's stored value (`TilePayload.lean`) what it writes back is that block of ONE
  whole-array function: the heads over the extended weights and biases (`padded`).  The 22 column blocks cover the
  output (column `j` lies in block `j / 256`), so the output array ends holding `padded`.
-/
import proofs.«150712_j62929860821463_1_alg».proof.Proof.Gen.KernelIdeal.Frame
import proofs.«150712_j62929860821463_1_alg».proof.Proof.TilePayload
import proofs.«150712_j62929860821463_1_alg».proof.Proof.Heads
import Idealize.ShloMosaic.Lib.Pipeline.Value

noncomputable section

namespace Cert.KernelIdeal.Tiles

open Cert.KernelIdeal Cert.KernelIdeal.Gen Cert.KernelIdeal.Tile Cert.Heads
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The heads over the feature array, the extended weight array and the extended bias row, as the region finds them. -/
abbrev padded (c : Dev nD) : S8192x5632.Idx → EReal :=
  heads (P := 5632) (V m c main_arg0) (V m c main_v0) (fun q => (V m c main_v2 : S1x5632.Idx → EReal) (ix2 (n0 := 1) (n1 := 5632) (0 : Fin 1) q))

/-- Which block each window is on at point `t`: the features always block (0, 0); the weights row block `t`; the
    biases and the output column block `t`. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

theorem lt_of_point (t : Fin cfg0.N) : t.val < 22 := lt_of_lt_of_eq t.isLt N_0

/-- The feature block at any point is the whole feature array. -/
theorem feat_blk (c : Dev nD) (t : Fin cfg0.N) (r : Fin 8192) (k : Fin 64) :
    (iblk m c 0 t : Vec Ideal S8192x64 .f32) (ix2 r k) = (V m c main_arg0 : S8192x64.Idx → EReal) (ix2 r k) := by
  obtain ⟨e00, e01, -⟩ := idx_facts t
  unfold iblk
  rw [View.read_apply]
  show V m c main_arg0 _ = V m c main_arg0 _
  congr 1
  funext a
  apply Fin.ext
  match a with
  | ⟨0, _⟩ => show win0_0.index t (0 : Fin 2) * 8192 + 1 * r.val = r.val; rw [e00]; omega
  | ⟨1, _⟩ => show win0_0.index t (1 : Fin 2) * 64 + 1 * k.val = k.val; rw [e01]; omega

/-- Row `q` of the weight tile at point `t` is row `256·t + q` of the extended weight array. -/
theorem wt_blk (c : Dev nD) (t : Fin cfg0.N) (q : Fin 256) (k : Fin 64) :
    (iblk m c 1 t : Vec Ideal S256x64 .f32) (ix2 q k)
      = (V m c main_v0 : S5632x64.Idx → EReal) (ix2 (n0 := 5632) (n1 := 64) ⟨256 * t.val + q.val, by have := lt_of_point t; omega⟩ k) := by
  obtain ⟨-, -, e10, e11, -⟩ := idx_facts t
  unfold iblk
  rw [View.read_apply]
  show V m c main_v0 _ = V m c main_v0 _
  congr 1
  funext a
  apply Fin.ext
  match a with
  | ⟨0, _⟩ => show win0_1.index t (0 : Fin 2) * 256 + 1 * q.val = 256 * t.val + q.val; rw [e10]; omega
  | ⟨1, _⟩ => show win0_1.index t (1 : Fin 2) * 64 + 1 * k.val = k.val; rw [e11]; omega

/-- Entry `q` of the bias tile at point `t` is entry `256·t + q` of the extended bias row. -/
theorem bias_blk (c : Dev nD) (t : Fin cfg0.N) (q : Fin 256) :
    (iblk m c 2 t : Vec Ideal S1x256 .f32) (ix2 (0 : Fin 1) q)
      = (V m c main_v2 : S1x5632.Idx → EReal) (ix2 (n0 := 1) (n1 := 5632) (0 : Fin 1) ⟨256 * t.val + q.val, by have := lt_of_point t; omega⟩) := by
  obtain ⟨-, -, -, -, e20, e21, -⟩ := idx_facts t
  unfold iblk
  rw [View.read_apply]
  show V m c main_v2 _ = V m c main_v2 _
  congr 1
  funext a
  apply Fin.ext
  match a with
  | ⟨0, _⟩ => show win0_2.index t (0 : Fin 2) * 1 + 1 * 0 = 0; rw [e20]
  | ⟨1, _⟩ => show win0_2.index t (1 : Fin 2) * 256 + 1 * q.val = 256 * t.val + q.val; rw [e21]; omega

/-- What the body stores at point `t`, entry `(r, q)`, is `padded` at `(r, 256·t + q)`. -/
theorem stored_apply (c : Dev nD) (t : Fin cfg0.N) (r : Fin 8192) (q : Fin 256) :
    k0_pay1 (iblk m c 0 t) (iblk m c 1 t) (iblk m c 2 t) (ix2 r q)
      = padded m c (ix2 (n0 := 8192) (n1 := 5632) r ⟨256 * t.val + q.val, by have := lt_of_point t; omega⟩) := by
  refine (pay_apply (iblk m c 0 t) (iblk m c 1 t) (iblk m c 2 t) r q).trans ?_
  rw [bias_blk m c t q]
  refine Eq.trans ?_ (heads_apply (P := 5632) (V m c main_arg0) (V m c main_v0) _ r ⟨256 * t.val + q.val, by have := lt_of_point t; omega⟩).symm
  refine congrArg (· + _) (Finset.sum_congr rfl fun k _ => ?_)
  rw [feat_blk m c t r k, wt_blk m c t q k]

/-- WHAT POINT `t` WRITES BACK is block `t` of `padded`. -/
theorem flushed_eq (c : Dev nD) (t : Fin cfg0.N) :
    (dats m 0 c).flushed 3 t = ((cfg0.win 3).blk t).view.read (Elt Ideal) (padded m c) := by
  show (cfg0.win 3).cut (grid0.coords t) ((dats m 0 c).after 3 t) = _
  rw [after0_3]
  unfold out0_3
  rw [View.canon_unit_zero hz]
  simp only [View.ld_unit_zero (S := S8192x64) hz, View.ld_unit_zero (S := S256x64) hz, View.ld_unit_zero (S := S1x256) hz]
  obtain ⟨-, -, -, -, -, -, e30, e31⟩ := idx_facts t
  funext j
  obtain ⟨r, q, rfl⟩ : ∃ (r : Fin 8192) (q : Fin 256), j = ix2 r q := ⟨j 0, j 1, eq_ix2 j⟩
  refine (stored_apply m c t r q).trans ?_
  rw [View.read_apply]
  congr 1
  funext a
  apply Fin.ext
  match a with
  | ⟨0, _⟩ => show r.val = win0_3.index t (0 : Fin 2) * 8192 + 1 * r.val; rw [e30]; omega
  | ⟨1, _⟩ => show 256 * t.val + q.val = win0_3.index t (1 : Fin 2) * 256 + 1 * q.val; rw [e31]; omega

/-- An index of the output array is in point `t`'s block iff each coordinate is in the block's range on its axis. -/
theorem mem_blk (t : Fin cfg0.N) (i : S8192x5632.Idx) :
    i ∈ ((cfg0.win 3).blk t).view.set ↔ ∀ a : Fin 2, win0_3.index t a * S8192x256.size a ≤ (i a).val ∧ (i a).val < win0_3.index t a * S8192x256.size a + S8192x256.size a := by
  show i ∈ ((View.whole main_v3).slice (win0_3.rect t)).set ↔ _
  rw [View.set_slice_whole, Rect.mem_set_unit]
  exact Iff.rfl

/-- Every index of the output array is in the block of the point its column falls in. -/
theorem cover (i : S8192x5632.Idx) : ∃ t : Fin cfg0.N, (cfg0.win 3).flush t = true ∧ i ∈ ((cfg0.win 3).blk t).view.set := by
  have hi0 : (i 0).val < 8192 := (i 0).isLt
  have hi1 : (i 1).val < 5632 := (i 1).isLt
  obtain ⟨t, ht⟩ : ∃ t : Fin cfg0.N, t.val = (i 1).val / 256 :=
    ⟨⟨(i 1).val / 256, by rw [show cfg0.N = 22 from N_0]; omega⟩, rfl⟩
  obtain ⟨-, -, -, -, -, -, e30, e31⟩ := idx_facts t
  refine ⟨t, flush0_3 t, ?_⟩
  rw [mem_blk]
  intro a
  match a with
  | ⟨0, _⟩ => show win0_3.index t (0 : Fin 2) * 8192 ≤ (i 0).val ∧ (i 0).val < win0_3.index t (0 : Fin 2) * 8192 + 8192; rw [e30]; omega
  | ⟨1, _⟩ => show win0_3.index t (1 : Fin 2) * 256 ≤ (i 1).val ∧ (i 1).val < win0_3.index t (1 : Fin 2) * 256 + 256; rw [e31]; omega

/-- THE OUTPUT ARRAY after the region: the heads over the extended weights and biases. -/
theorem final (c : Dev nD) : (dats m 0 c).arrAt 3 cfg0.N = padded m c :=
  (dats m 0 c).arrAt_eq_of_cover 3 (padded m c) (fun t _ => flushed_eq m c t) cover

end Cert.KernelIdeal.Tiles

end
-- ==== Proof.Entry.lean ====
/-
  The arrays the kernel region is launched on.

  Before the region the program extends the 5494 weight rows to 5632 rows and the 5494 biases to 5632 (as one row
  [1, 5632]) by appending 138 entries of a fill value, so that the head axis splits into 22 tiles of 256.  Read below
  index 5494 the extended arrays are the given ones; the fill value itself never matters, because the columns it
  reaches are cut off again after the region.
-/
import proofs.«150712_j62929860821463_1_alg».proof.Proof.Gen.KernelIdeal.Frame
import Idealize.ShloMosaic.Lib.ValueIdx
import Idealize.ShloMosaic.Lib.Pipeline.Value
import Idealize.ShloMosaic.Lib.StableHlo.Run
import Idealize.ShloMosaic.Lib.KernelVsHost

noncomputable section

namespace Cert.KernelIdeal.Entry

open Cert.KernelIdeal Cert.KernelIdeal.Gen
open Idealize.ShloMosaic Idealize.ShloMosaic.TcCoe Idealize.SL.Sem Idealize.ShloMosaic.ValueIdx Idealize.ShloMosaic.StableHlo

variable {F : FTy → Type} [FloatOps F]
variable (m : (ℓ : Loc nD τ sig) → Buf (Elt F) ℓ)

/-- The weight array at the region's entry: the given rows, then 138 rows of the fill value. -/
theorem weights_entry (c : Dev nD) :
    (V m c main_v0 : S5632x64.Idx → Elt F .f32)
      = pad S5632x64 ![0, 0] ![138, 0] ![0, 0] (m ((c : Thread nD τ).loc main_arg1)) (sitofp (F := F) .f32 (constantI S_ 32 0#32))
          pads_S5494x64_S5632x64_01380_000 h_S_ := by
  dsimp only [V, V0]
  simp only [hostOps0, hostOps0_1, hostOps0_2, hostOps0_3, hostOps0_4, List.flatten_cons, List.flatten_nil, List.append_nil,
    List.cons_append, List.nil_append]
  after_results
  rfl

/-- The bias row at the region's entry: the given biases, then 138 entries of the fill value, as one row. -/
theorem bias_entry (c : Dev nD) :
    (V m c main_v2 : S1x5632.Idx → Elt F .f32)
      = shapeCast S1x5632 (pad S5632 ![0] ![138] ![0] (m ((c : Thread nD τ).loc main_arg2)) (sitofp (F := F) .f32 (constantI S_ 32 0#32))
          pads_S5494_S5632_01380 h_S_) shapeCasts_S5632_S1x5632 := by
  dsimp only [V, V0]
  simp only [hostOps0, hostOps0_1, hostOps0_2, hostOps0_3, hostOps0_4, List.flatten_cons, List.flatten_nil, List.append_nil,
    List.cons_append, List.nil_append]
  after_results
  rfl

/-- Weight row `p < 5494` of the extended array is weight row `p` as given. -/
theorem weights_entry_apply (c : Dev nD) (p : Fin 5494) (k : Fin 64) :
    (V m c main_v0 : S5632x64.Idx → Elt F .f32) (ix2 (n0 := 5632) (n1 := 64) ⟨p.val, by omega⟩ k)
      = (m ((c : Thread nD τ).loc main_arg1) : S5494x64.Idx → Elt F .f32) (ix2 p k) := by
  rw [weights_entry]
  exact pad_apply_of_inside _ _ _ _ _ pads_S5494x64_S5632x64_01380_000 h_S_ (ix2 (n0 := 5632) (n1 := 64) ⟨p.val, by omega⟩ k) (ix2 p k)
    (fun a => match a with
      | ⟨0, _⟩ => by show p.val = 0 + p.val * (0 + 1); omega
      | ⟨1, _⟩ => by show k.val = 0 + k.val * (0 + 1); omega)

/-- Bias `p < 5494` of the extended row is bias `p` as given. -/
theorem bias_entry_apply (c : Dev nD) (p : Fin 5494) :
    (V m c main_v2 : S1x5632.Idx → Elt F .f32) (ix2 (n0 := 1) (n1 := 5632) (0 : Fin 1) ⟨p.val, by omega⟩)
      = (m ((c : Thread nD τ).loc main_arg2) : S5494.Idx → Elt F .f32) (ix1 p) := by
  rw [bias_entry]
  refine (shapeCast_apply _ shapeCasts_S5632_S1x5632 (ix2 (n0 := 1) (n1 := 5632) (0 : Fin 1) ⟨p.val, by omega⟩)
    (ix1 (n := 5632) ⟨p.val, by omega⟩) ?_).trans ?_
  · rw [Shape.rowMajor_val_one, Shape.rowMajor_val_two]
    show p.val = 0 * 5632 + p.val
    omega
  · exact pad_apply_of_inside _ _ _ _ _ pads_S5494_S5632_01380 h_S_ (ix1 (n := 5632) ⟨p.val, by omega⟩) (ix1 p)
      (fun a => match a with
        | ⟨0, _⟩ => by show p.val = 0 + p.val * (0 + 1); omega)

end Cert.KernelIdeal.Entry

end
-- ==== Proof.Result.lean ====
/-
  The kernel program's run, read: its result is the pixel grid of the heads over the GIVEN weights and biases.

  After the region the output array holds the heads over the extended weights and biases (`Tiles.lean`).  The program
  then keeps columns 0 … 5493 of it, which are the heads over the given weights and biases (`Heads.heads_restrict` with
  `Entry.lean`: below index 5494 the extended arrays are the given ones), and lays them out as the pixel grid by the
  same three layout operations as the reference.
-/
import proofs.«150712_j62929860821463_1_alg».proof.Proof.Gen.KernelIdeal.Frame
import proofs.«150712_j62929860821463_1_alg».proof.Proof.Tiles
import proofs.«150712_j62929860821463_1_alg».proof.Proof.Entry
import proofs.«150712_j62929860821463_1_alg».proof.Proof.Heads
import Idealize.ShloMosaic.Lib.Pipeline.Value
import Idealize.ShloMosaic.Lib.StableHlo.Run

noncomputable section

namespace Cert.KernelIdeal.Result

open Cert.KernelIdeal Cert.KernelIdeal.Gen Cert.KernelIdeal.Tiles Cert.KernelIdeal.Entry Cert.Heads
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The heads over the program's three arguments. -/
abbrev given (c : Dev nD) : S8192x5494.Idx → EReal :=
  heads (P := 5494) (m ((c : Thread nD τ).loc main_arg0)) (m ((c : Thread nD τ).loc main_arg1))
    (fun p => (m ((c : Thread nD τ).loc main_arg2) : S5494.Idx → EReal) (ix1 p))

/-- Columns 0 … 5493 of the heads over the extended arrays are the heads over the given ones. -/
theorem slice_padded (c : Dev nD) :
    extractStridedSlice S8192x5494 ![0, 0] (padded m c) slices_S8192x5632_S8192x5494_0_0 = given m c := by
  funext j
  obtain ⟨r, p, rfl⟩ : ∃ (r : Fin 8192) (p : Fin 5494), j = ix2 r p := ⟨j 0, j 1, eq_ix2 j⟩
  refine (extractStridedSlice_apply _ _ slices_S8192x5632_S8192x5494_0_0 (ix2 r p)
    (ix2 (n0 := 8192) (n1 := 5632) r ⟨p.val, by omega⟩) (fun a => ?_)).trans ?_
  · match a with
    | ⟨0, _⟩ => show r.val = 0 + r.val; omega
    | ⟨1, _⟩ => show p.val = 0 + p.val; omega
  · refine (heads_restrict (V m c main_arg0) (m ((c : Thread nD τ).loc main_arg1))
      (fun p => (m ((c : Thread nD τ).loc main_arg2) : S5494.Idx → EReal) (ix1 p)) (V m c main_v0)
      (fun q => (V m c main_v2 : S1x5632.Idx → EReal) (ix2 (n0 := 1) (n1 := 5632) (0 : Fin 1) q))
      (weights_entry_apply m c) (bias_entry_apply m c) r p).trans ?_
    rw [V_main_arg0]

/-- The region's output array, as the lines after the region find it. -/
theorem region_out (c : Dev nD) :
    (Pipeline.withArrays (cfgs 0).spec c (V0 m c) (fun w => (dats m 0 c).arrAt w (cfgs 0).N) (Proc.devRef .tc main_v3)
      : S8192x5632.Idx → EReal) = padded m c :=
  (Pipeline.withArrays_arr spec0 launch0.win.arr_inj c _ _ 3).trans (final m c)

/-- The program's result: the pixel grid of the heads over the given arguments. -/
theorem tail_eq (c : Dev nD) :
    (Pipeline.afterTail₀ cfgs (dats m) 0 (V0 m) [hostOps1] c main_v7 : S8192x82x67x1.Idx → EReal)
      = pixelGrid (given m c) shapeCasts_S8192x5494_S8192x67x82 transposes_S8192x67x82_S8192x82x67_0_2_1
          bcast_S8192x82x67_S8192x82x67x1_0_1_2 := by
  unfold Pipeline.afterTail₀
  show StableHlo.after hostOps1 _ (Proc.devRef .tc main_v7) = _
  after_results
  rw [region_out m c, slice_padded m c]
  rfl

/-- Every weakly fair execution of the kernel program terminates with its result at the pixel grid of the heads over
    its arguments, and the arguments unchanged. -/
theorem run : θ_run defs (onTc (τ := τ) (main (F := Ideal))) ⟨m, fun _ => 0, ρ⟩ fun r => ∀ c : Dev nD,
      r.2.mem ((c.tc : Thread nD τ).loc main_v7)
        = pixelGrid (given m c) shapeCasts_S8192x5494_S8192x67x82 transposes_S8192x67x82_S8192x82x67_0_2_1
            bcast_S8192x82x67_S8192x82x67x1_0_1_2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v7 (Pipeline.mem_restRefs_of main_v7 (by decide) (by decide))).trans (tail_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.Result

end
-- ==== Proof.RefSide.lean ====
/-
  The reference, read index by index.

  The reference contracts the feature axis of `x` [8192, 64] against the feature axis of `W` [5494, 64], adds the
  bias `b` broadcast along the batch axis, and lays the [8192, 5494] result out as the pixel grid.  At the extended
  reals its `dot_general` is the plain sum of products over the 64 features, so the array before the layout
  operations is `heads x W b` (`Heads.lean`), and the result is `pixelGrid` of it.
-/
import proofs.«150712_j62929860821463_1_alg».proof.Proof.Gen.ReferenceIdeal.Read
import proofs.«150712_j62929860821463_1_alg».proof.Proof.Heads

noncomputable section

namespace Cert.ReferenceIdeal.RefValue

open Cert.ReferenceIdeal Cert.ReferenceIdeal.Gen Cert.ReferenceIdeal.Read
open Idealize.ShloMosaic Idealize.ShloMosaic.ValueIdx Cert.Heads

/-- The left operand of the contraction at output `(r, p)` and feature `k` is `x (r, k)`. -/
theorem lidx_eq (i : S8192x5494.Idx) (k : Fin 64) : lidx_main_v0 i k = ix2 (n0 := 8192) (n1 := 64) (i 0) k :=
  funext fun a => Fin.ext (by match a with | ⟨0, _⟩ => rfl | ⟨1, _⟩ => rfl)

/-- The right operand there is `W (p, k)`: both feature axes are contracted, so `W` is read by rows. -/
theorem ridx_eq (i : S8192x5494.Idx) (k : Fin 64) : ridx_main_v0 i k = ix2 (n0 := 5494) (n1 := 64) (i 1) k :=
  funext fun a => Fin.ext (by match a with | ⟨0, _⟩ => rfl | ⟨1, _⟩ => rfl)

/-- The bias broadcast to [1, 5494] and then to [8192, 5494], read at `(r, p)`, is `b p`. -/
theorem bidx_eq (i : S8192x5494.Idx) : idx_main_v1 (idx_main_v2 i) = ix1 (n := 5494) (i 1) :=
  funext fun a => Fin.ext (by match a with | ⟨0, _⟩ => rfl)

/-- Contraction plus broadcast bias is the affine heads map. -/
theorem sum_bias_eq (x : (⟨S8192x64, .f32⟩ : BufTy).Contents (Elt Ideal)) (W : (⟨S5494x64, .f32⟩ : BufTy).Contents (Elt Ideal))
    (b : (⟨S5494, .f32⟩ : BufTy).Contents (Elt Ideal)) :
    val_main_v3 (F := Ideal) x W b = heads x W (fun p => b (ix1 p)) := by
  funext i
  rw [val_main_v3_apply, val_main_v0_apply, val_main_v2_apply, val_main_v1_apply, bidx_eq]
  show (∑ k : Fin 64, x (lidx_main_v0 i k) * W (ridx_main_v0 i k)) + b (ix1 (i 1))
      = (∑ k : Fin 64, x (ix2 (n0 := 8192) (n1 := 64) (i 0) k) * W (ix2 (n0 := 5494) (n1 := 64) (i 1) k)) + b (ix1 (i 1))
  exact congrArg (· + b (ix1 (i 1))) (Finset.sum_congr rfl fun k _ => by rw [lidx_eq, ridx_eq])

/-- The reference's result is the pixel grid of the heads. -/
theorem result_eq (x : (⟨S8192x64, .f32⟩ : BufTy).Contents (Elt Ideal)) (W : (⟨S5494x64, .f32⟩ : BufTy).Contents (Elt Ideal))
    (b : (⟨S5494, .f32⟩ : BufTy).Contents (Elt Ideal)) :
    val_main_v6 (F := Ideal) x W b
      = pixelGrid (heads x W (fun p => b (ix1 p))) shapeCasts_S8192x5494_S8192x67x82 transposes_S8192x67x82_S8192x82x67_0_2_1
          bcast_S8192x82x67_S8192x82x67x1_0_1_2 := by
  unfold val_main_v6 val_main_v5 val_main_v4
  rw [sum_bias_eq]
  rfl

end Cert.ReferenceIdeal.RefValue

end
-- ==== Proof.lean ====
/-
  5494 affine "pixel" heads on 64 features, for a batch of 8192 rows, laid out as an 82 × 67 pixel grid:

      out[r, x, y, 0] = Σ_k inputs[r, k] · W[p, k] + b[p],   p = y · 82 + x.

  The reference computes this as one contraction of the two feature axes, a broadcast bias, and three layout
  operations.  The kernel appends 138 filler rows to `W` and `b` so that the head axis splits into 22 tiles of 256,
  computes each tile of heads on its own grid point (features against the TRANSPOSED weight tile, into a zero
  accumulator, plus the tile's biases), cuts the 138 filler columns off again and applies the same three layout
  operations.  On the extended reals narrowing to bf16 is the identity and both products are the plain sum of 64
  products, so both programs compute `pixelGrid (heads inputs W b)` (`Proof/Heads.lean`):

    * `Proof/RefSide.lean`     the reference's result is that term;
    * `Proof/TilePayload.lean` one entry of what a grid point stores;
    * `Proof/Entry.lean`       the extended arrays below index 5494 are the given ones;
    * `Proof/Tiles.lean`       the 22 column blocks written back are blocks of ONE function and cover the output;
    * `Proof/Result.lean`      the kept columns are the heads over the given arrays, then the common layout.

  No property of the inputs is used: the two sides are the same sum of the same products, term by term, and the
  filler value never reaches a kept column.
-/
import proofs.«150712_j62929860821463_1_alg».proof.Defs
import proofs.«150712_j62929860821463_1_alg».proof.Proof.Gen.Kernel
import proofs.«150712_j62929860821463_1_alg».proof.Proof.Gen.Kernel.Frame
import proofs.«150712_j62929860821463_1_alg».proof.Proof.Gen.KernelIdeal
import proofs.«150712_j62929860821463_1_alg».proof.Proof.Gen.KernelIdeal.Frame
import proofs.«150712_j62929860821463_1_alg».proof.Proof.Gen.ReferenceIdeal
import proofs.«150712_j62929860821463_1_alg».proof.Proof.Gen.ReferenceIdeal.Run
import proofs.«150712_j62929860821463_1_alg».proof.Proof.Gen.ReferenceIdeal.Read
import proofs.«150712_j62929860821463_1_alg».proof.Proof.Gen.Pre_finite_inputs
import proofs.«150712_j62929860821463_1_alg».proof.Proof.Result
import proofs.«150712_j62929860821463_1_alg».proof.Proof.RefSide
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of array operations: it runs, and writes no argument. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: nothing was rewritten. -/
theorem preserves : Cert.preserves_Kernel_KernelIdeal := trivial

/-- From memories that agree on the three arguments both programs end with the pixel grid of the heads over those
    arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
